-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1024x512 : Shape := ⟨2, ![1024, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S1x4096, .f32⟩
  | .hbm, ⟨8, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v52 : BitVec 1 := Scalar.cmpi .eq arg2 c7_i32
  let v53 : BitVec 32 := Scalar.extui v52
  let c0_i32_26 : BitVec 32 := 0#32
  let v54 : BitVec 1 := Scalar.cmpi .ne v53 c0_i32_26
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S4096x1 : S4096.ShapeCasts S4096x1
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S_, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .i1⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .i1⟩
  | .hbm, ⟨50, _⟩ => ⟨S4096x4096, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S8192x4096, .f32⟩
  | .hbm, ⟨59, _⟩ => ⟨S1x4096, .f32⟩
  | .hbm, ⟨60, _⟩ => ⟨S8192x4096, .f32⟩
  | .hbm, ⟨61, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_cst_5 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_cst_6 : Ref sig .tc := ⟨.hbm, 28, rfl⟩
abbrev main_v8 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_v11 : Ref sig .tc := ⟨.hbm, 33, rfl⟩
abbrev main_cst_8 : Ref sig .tc := ⟨.hbm, 34, rfl⟩
abbrev main_cst_9 : Ref sig .tc := ⟨.hbm, 35, rfl⟩
abbrev main_call3_v0 : Ref sig .tc := ⟨.hbm, 36, rfl⟩
abbrev main_call3_v1 : Ref sig .tc := ⟨.hbm, 37, rfl⟩
abbrev main_v12 : Ref sig .tc := ⟨.hbm, 38, rfl⟩
abbrev main_cst_10 : Ref sig .tc := ⟨.hbm, 39, rfl⟩
abbrev main_call4_v0 : Ref sig .tc := ⟨.hbm, 40, rfl⟩
abbrev main_v13 : Ref sig .tc := ⟨.hbm, 41, rfl⟩
abbrev main_v14 : Ref sig .tc := ⟨.hbm, 42, rfl⟩
abbrev main_cst_11 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_12 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as values. At a point (i, j, k) the kernel body holds an activation block
  `x0` [1024, 512], a latent-weight block `x1` [512, 512], the two scale columns `x2`, `x3` [512, 1], the bias row `x4`
  [1, 512], and an accumulator [1024, 512] that lives from one point to the next.

    k = 0 (the first stretch of a dot product): the accumulator is zeroed and then holds 0 + a · weffᵀ;
    0 < k < 7: it holds what the point before left plus a · weffᵀ;
    k = 7: the same, and the output block receives the accumulator plus the bias row.

  Here `a` is the ternarized clipped activation block and `weff` the scaled ternary weight block: the accumulate
  step is `k0_pay1`, the bias step `k0_pay2`, the zero block `k0_pay3`, the ternarizations `k0_pay4`, `k0_pay6`,
  `k0_pay7`. Every store of the body covers its buffer whole, so what a buffer ends holding is the last store's
  value, and a load after a store reads that value back. Stated for any reading of the floats.
-/
import proofs.«112102_j37838661877796_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 buffer, as the constant-zero offset. -/
theorem hz : (![0, 0] : Fin 2 → Nat) = fun _ => 0 := funext fun a => by fin_cases a <;> rfl

/-- The first stretch: the accumulator is zeroed, read back, and left at zero plus this stretch's product. -/
theorem scratch_A (c : Dev nD) (i : grid0.Coords) (a3 : Memref sig .tc .vmem S1024x512 .f32) (h3 : a3.IsWhole) (a4 : Memref sig .tc .vmem S512x512 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i) (x0 : Vec F S1024x512 .f32) (x1 : Vec F S512x512 .f32) (x2 : Vec F S512x1 .f32) (x3 : Vec F S512x1 .f32) (x4 : Vec F S1x512 .f32) :
    sout0_A_0 c i a3 h3 a4 h4 a5 h5 a6 h6 a7 h7 a8 h8 a9 h9 hc0 hc1 x0 x1 x2 x3 x4 = k0_pay1 (k0_pay4 x0) (k0_pay6 x1) (k0_pay7 x1) x2 x3 (k0_pay3 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x512) hz]
  simp only [View.readAt_eq_ld, h3.read_unread, h4.read_unread, h5.read_unread, h6.read_unread, h7.read_unread, h8.read_unread, h9.read_unread, View.ld_unit_zero (S := S1024x512) hz, View.ld_unit_zero (S := S512x512) hz, View.ld_unit_zero (S := S512x1) hz, View.ld_unit_zero (S := S1x512) hz, View.readCov_unit_zero (S := S1024x512) _ hz]

/-- A middle stretch: the accumulator `xs0` of the point before, plus this stretch's product. -/
theorem scratch_B (c : Dev nD) (i : grid0.Coords) (a3 : Memref sig .tc .vmem S1024x512 .f32) (h3 : a3.IsWhole) (a4 : Memref sig .tc .vmem S512x512 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : ¬cond0_1 i) (x0 : Vec F S1024x512 .f32) (x1 : Vec F S512x512 .f32) (x2 : Vec F S512x1 .f32) (x3 : Vec F S512x1 .f32) (x4 : Vec F S1x512 .f32) (xs0 : Vec F S1024x512 .f32) :
    sout0_B_0 c i a3 h3 a4 h4 a5 h5 a6 h6 a7 h7 a8 h8 a9 h9 hc0 hc1 x0 x1 x2 x3 x4 xs0 = k0_pay1 (k0_pay4 x0) (k0_pay6 x1) (k0_pay7 x1) x2 x3 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz]
  simp only [View.readAt_eq_ld, h3.read_unread, h4.read_unread, h5.read_unread, h6.read_unread, h7.read_unread, h8.read_unread, h9.read_unread, View.ld_unit_zero (S := S1024x512) hz, View.ld_unit_zero (S := S512x512) hz, View.ld_unit_zero (S := S512x1) hz, View.ld_unit_zero (S := S1x512) hz, View.readCov_unit_zero (S := S1024x512) _ hz]

/-- The last stretch leaves the accumulator as a middle one does, -/
theorem scratch_C (c : Dev nD) (i : grid0.Coords) (a3 : Memref sig .tc .vmem S1024x512 .f32) (h3 : a3.IsWhole) (a4 : Memref sig .tc .vmem S512x512 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x512 .f32) (x1 : Vec F S512x512 .f32) (x2 : Vec F S512x1 .f32) (x3 : Vec F S512x1 .f32) (x4 : Vec F S1x512 .f32) (xs0 : Vec F S1024x512 .f32) :
    sout0_C_0 c i a3 h3 a4 h4 a5 h5 a6 h6 a7 h7 a8 h8 a9 h9 hc0 hc1 x0 x1 x2 x3 x4 xs0 = k0_pay1 (k0_pay4 x0) (k0_pay6 x1) (k0_pay7 x1) x2 x3 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h8.read_unread, h9.read_unread, View.ld_unit_zero (S := S1024x512) hz, View.ld_unit_zero (S := S512x512) hz, View.ld_unit_zero (S := S512x1) hz, View.ld_unit_zero (S := S1x512) hz, View.readCov_unit_zero (S := S1024x512) _ hz]

/-- and stores, into the output block, that accumulator plus the bias row. -/
theorem out_C (c : Dev nD) (i : grid0.Coords) (a3 : Memref sig .tc .vmem S1024x512 .f32) (h3 : a3.IsWhole) (a4 : Memref sig .tc .vmem S512x512 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x512 .f32) (x1 : Vec F S512x512 .f32) (x2 : Vec F S512x1 .f32) (x3 : Vec F S512x1 .f32) (x4 : Vec F S1x512 .f32) (xs0 : Vec F S1024x512 .f32) :
    out0_C_5 c i a3 h3 a4 h4 a5 h5 a6 h6 a7 h7 a8 h8 a9 h9 hc0 hc1 x0 x1 x2 x3 x4 xs0 = k0_pay2 (k0_pay1 (k0_pay4 x0) (k0_pay6 x1) (k0_pay7 x1) x2 x3 xs0) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h8.read_unread, h9.read_unread, View.ld_unit_zero (S := S1024x512) hz, View.ld_unit_zero (S := S512x512) hz, View.ld_unit_zero (S := S512x1) hz, View.ld_unit_zero (S := S1x512) hz, View.readCov_unit_zero (S := S1024x512) _ hz]

end Cert.KernelIdeal.Pieces

end
-- ==== Proof.Spec.lean ====
/-
  The ternary GEMM with per-channel scales, as ONE function of its five argument arrays over the extended reals.

  An activation `x` is clipped to [-2.5, 2.5] and ternarized against the threshold `d` (the binary value of the f32
  literal 0.05): `act x` is 1 above `d`, -1 below `-d`, 0 between. A latent weight `w` is ternarized the same way
  (no clip); `posMask w` / `negMask w` are the 0/1 indicators of its +1 and -1 planes, and output channel `c`'s
  effective weight is `ap c * posMask w - an c * negMask w`. The result at row `r`, channel `c` is

      (Σ k < 4096, act (x r k) * weff (ap c) (an c) (w c k)) + bias c.

  The kernel reaches that sum in eight stretches of 512 terms, each added to what the stretches before it left
  (`dot_step`); a finite sum over an additive commutative monoid may be cut this way, and the extended reals are one,
  so no finiteness of the entries is needed anywhere.
-/
import Idealize.ShloMosaic.PureOps.Ideal
import Idealize.ShloMosaic.PureOps.Ideal.Laws
import Idealize.ShloMosaic.Lib.ValueIdx

noncomputable section

open scoped BigOperators

namespace Cert.TernaryGemm

open Idealize.ShloMosaic Idealize.ShloMosaic.ValueIdx

/-! ## One element -/

/-- Ternarization against the threshold: 1 above it, -1 below its negative, 0 between (the comparisons and the
    nested selection exactly as both programs spell them). -/
def tern (y : EReal) : EReal :=
  Scalar.select (FloatOps.cmpf (F := Ideal) (φ := .f32) .ogt y (Ideal.ofBits .f32 0x3D4CCCCD#32)) (Ideal.ofBits .f32 0x3F800000#32)
    (Scalar.select (FloatOps.cmpf (F := Ideal) (φ := .f32) .olt y (Ideal.ofBits .f32 0xBD4CCCCD#32)) (Ideal.ofBits .f32 0xBF800000#32)
      (Ideal.ofBits .f32 0x00000000#32))

/-- The clip to [-2.5, 2.5]: the larger of -2.5 and `x`, then the smaller of 2.5 and that. -/
def clip (x : EReal) : EReal :=
  min (Ideal.ofBits .f32 0x40200000#32) (max (Ideal.ofBits .f32 0xC0200000#32) x)

/-- A ternarized, clipped activation. -/
def act (x : EReal) : EReal := tern (clip x)

/-- The indicator (0 or 1, as a real) that a latent weight ternarizes to +1. -/
def posMask (w : EReal) : EReal :=
  FloatOps.uitofp (F := Ideal) .f32 (FloatOps.cmpf (F := Ideal) (φ := .f32) .oeq (tern w) (Ideal.ofBits .f32 0x3F800000#32))

/-- The indicator that a latent weight ternarizes to -1. -/
def negMask (w : EReal) : EReal :=
  FloatOps.uitofp (F := Ideal) .f32 (FloatOps.cmpf (F := Ideal) (φ := .f32) .oeq (tern w) (Ideal.ofBits .f32 0xBF800000#32))

/-- The effective weight of a channel with scales `ap`, `an` at a latent weight `w`. -/
def weff (ap an w : EReal) : EReal := ap * posMask w - an * negMask w

/-- A one-bit word widened to 32 bits and read as a signed integer is the bit read unsigned: both are 0 or 1. -/
theorem sitofp_widen_bit (b : BitVec 1) :
    FloatOps.sitofp (F := Ideal) .f32 (b.setWidth 32) = FloatOps.uitofp (F := Ideal) .f32 b := by
  show (((b.setWidth 32).toInt : ℝ) : EReal) = ((b.toNat : ℝ) : EReal)
  by_cases h : b = 1#1
  · subst h; norm_num
  · obtain rfl := eq_zero_of_ne_one h; norm_num

/-! ## The arrays read at natural-number coordinates -/

/-- A rank-2 array at row `r`, column `k` (0 outside its extents, where nothing reads it). -/
def at2 {n0 n1 : Nat} (x : (⟨2, ![n0, n1]⟩ : Shape).Idx → EReal) (r k : ℕ) : EReal :=
  if h : r < n0 ∧ k < n1 then x (ix2 ⟨r, h.1⟩ ⟨k, h.2⟩) else 0

/-- A rank-1 array at position `c`. -/
def at1 {n : Nat} (v : (⟨1, ![n]⟩ : Shape).Idx → EReal) (c : ℕ) : EReal :=
  if h : c < n then v (ix1 ⟨c, h⟩) else 0

theorem at2_ix {n0 n1 : Nat} (x : (⟨2, ![n0, n1]⟩ : Shape).Idx → EReal) (a : Fin n0) (b : Fin n1) :
    at2 x a.val b.val = x (ix2 a b) := by
  unfold at2; rw [dif_pos ⟨a.isLt, b.isLt⟩]

theorem at1_ix {n : Nat} (v : (⟨1, ![n]⟩ : Shape).Idx → EReal) (a : Fin n) : at1 v a.val = v (ix1 a) := by
  unfold at1; rw [dif_pos a.isLt]

/-! ## The result -/

/-- Term `k` of the dot product of row `r` of the ternarized activations with channel `c`'s effective weights. -/
def term (x : (⟨2, ![8192, 4096]⟩ : Shape).Idx → EReal) (w : (⟨2, ![4096, 4096]⟩ : Shape).Idx → EReal)
    (ap an : (⟨1, ![4096]⟩ : Shape).Idx → EReal) (r c k : ℕ) : EReal :=
  act (at2 x r k) * weff (at1 ap c) (at1 an c) (at2 w c k)

/-- The first `n` terms of that dot product. -/
def dot (x : (⟨2, ![8192, 4096]⟩ : Shape).Idx → EReal) (w : (⟨2, ![4096, 4096]⟩ : Shape).Idx → EReal)
    (ap an : (⟨1, ![4096]⟩ : Shape).Idx → EReal) (r c n : ℕ) : EReal :=
  ∑ k ∈ Finset.range n, term x w ap an r c k

/-- THE RESULT, element by element: the whole dot product plus the channel's bias. -/
def G (x : (⟨2, ![8192, 4096]⟩ : Shape).Idx → EReal) (w : (⟨2, ![4096, 4096]⟩ : Shape).Idx → EReal)
    (ap an b : (⟨1, ![4096]⟩ : Shape).Idx → EReal) : (⟨2, ![8192, 4096]⟩ : Shape).Idx → EReal :=
  fun i => dot x w ap an (i 0).val (i 1).val 4096 + at1 b (i 1).val

theorem dot_zero (x : (⟨2, ![8192, 4096]⟩ : Shape).Idx → EReal) (w : (⟨2, ![4096, 4096]⟩ : Shape).Idx → EReal)
    (ap an : (⟨1, ![4096]⟩ : Shape).Idx → EReal) (r c : ℕ) : dot x w ap an r c 0 = 0 := by
  unfold dot; rw [Finset.range_zero, Finset.sum_empty]

/-- One more stretch of `b` terms: the sum's first `a + b` terms are its first `a` plus the next `b`. -/
theorem dot_step (x : (⟨2, ![8192, 4096]⟩ : Shape).Idx → EReal) (w : (⟨2, ![4096, 4096]⟩ : Shape).Idx → EReal)
    (ap an : (⟨1, ![4096]⟩ : Shape).Idx → EReal) (r c a b : ℕ) :
    dot x w ap an r c (a + b) = dot x w ap an r c a + ∑ kk : Fin b, term x w ap an r c (a + kk.val) := by
  unfold dot
  rw [Finset.sum_range_add]
  exact congrArg _ (Finset.sum_range fun kk => term x w ap an r c (a + kk))

/-- The whole dot product as a sum over the 4096 positions. -/
theorem dot_full (x : (⟨2, ![8192, 4096]⟩ : Shape).Idx → EReal) (w : (⟨2, ![4096, 4096]⟩ : Shape).Idx → EReal)
    (ap an : (⟨1, ![4096]⟩ : Shape).Idx → EReal) (r c : ℕ) :
    dot x w ap an r c 4096 = ∑ k : Fin 4096, term x w ap an r c k.val := by
  unfold dot; rw [Finset.sum_range]

end Cert.TernaryGemm

end
-- ==== Proof.Payloads.lean ====
/-
  The kernel body's arithmetic, read one element at a time over the extended reals.

    the accumulate step at (p, q): the old accumulator there plus Σ kk < 512, a (p, kk) · weff (q, kk), where
      weff (q, kk) = ap (q, 0) · P (q, kk) − an (q, 0) · N (q, kk): the matrix unit's contraction over both operands'
      second axis, the narrowing to bf16 the identity, the scale columns spread along the row;
    the bias step at (p, q): the accumulator there plus bias (0, q);
    the zero block: 0 everywhere;
    the ternarized activation block at an element: `act` of that element; the +1 and −1 plane indicators of a weight
      block at an element: `posMask` and `negMask` of it (the kernel widens the comparison bit to 32 bits and converts
      it as a signed integer: the same 0 or 1).
-/
import proofs.«112102_j37838661877796_1_alg».proof.Proof.Gen.KernelIdeal.Skeleton
import proofs.«112102_j37838661877796_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Cert.TernaryGemm Idealize.ShloMosaic Idealize.ShloMosaic.ValueIdx

/-! ## The pointwise pieces -/

/-- The zero block is 0 at every element. -/
theorem zero_apply (j : S1024x512.Idx) : k0_pay3 (F := Ideal) j = 0 := by
  unfold k0_pay3
  simp only [shapeCast_self]
  exact Ideal.ofBits_zero_f32

/-- The ternarized clipped activations, element by element. -/
theorem act_apply (v3 : Vec Ideal S1024x512 .f32) (j : S1024x512.Idx) : k0_pay4 v3 j = act (v3 j) := rfl

/-- The +1 plane's indicator, element by element. -/
theorem pos_apply (v18 : Vec Ideal S512x512 .f32) (j : S512x512.Idx) : k0_pay6 v18 j = posMask (v18 j) := by
  show FloatOps.sitofp (F := Ideal) .f32
    ((FloatOps.cmpf (F := Ideal) (φ := .f32) .oeq (tern (v18 j)) (Ideal.ofBits .f32 0x3F800000#32)).setWidth 32) = _
  exact sitofp_widen_bit _

/-- The −1 plane's indicator, element by element. -/
theorem neg_apply (v18 : Vec Ideal S512x512 .f32) (j : S512x512.Idx) : k0_pay7 v18 j = negMask (v18 j) := by
  show FloatOps.sitofp (F := Ideal) .f32
    ((FloatOps.cmpf (F := Ideal) (φ := .f32) .oeq (tern (v18 j)) (Ideal.ofBits .f32 0xBF800000#32)).setWidth 32) = _
  exact sitofp_widen_bit _

/-! ## The contraction: both operands are indexed (row, kk) -/

theorem lhs_axis0 (j : S1024x512.Idx) (q : dot_S1024x512_S512x512_S1024x512_1_1_0_0_n_n.contr.Idx) :
    (dot_S1024x512_S512x512_S1024x512_1_1_0_0_n_n.lhsIdx j q 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_axis1 (j : S1024x512.Idx) (q : dot_S1024x512_S512x512_S1024x512_1_1_0_0_n_n.contr.Idx) :
    (dot_S1024x512_S512x512_S1024x512_1_1_0_0_n_n.lhsIdx j q 1).val = (q ⟨0, by decide⟩).val :=
  dot_S1024x512_S512x512_S1024x512_1_1_0_0_n_n.lhsIdx_val_of_single rfl j q
theorem rhs_axis0 (j : S1024x512.Idx) (q : dot_S1024x512_S512x512_S1024x512_1_1_0_0_n_n.contr.Idx) :
    (dot_S1024x512_S512x512_S1024x512_1_1_0_0_n_n.rhsIdx j q 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_axis1 (j : S1024x512.Idx) (q : dot_S1024x512_S512x512_S1024x512_1_1_0_0_n_n.contr.Idx) :
    (dot_S1024x512_S512x512_S1024x512_1_1_0_0_n_n.rhsIdx j q 1).val = (q ⟨0, by decide⟩).val :=
  dot_S1024x512_S512x512_S1024x512_1_1_0_0_n_n.rhsIdx_val_of_single rfl j q

/-- The matrix unit's product into a zero accumulator at (p, q): row p of the left block against row q of the right. -/
theorem product_apply (l : FVec Ideal S1024x512 .bf16) (r : FVec Ideal S512x512 .bf16) (p : Fin 1024) (q : Fin 512) :
    matmul dot_S1024x512_S512x512_S1024x512_1_1_0_0_n_n none l r (constant S1024x512 .f32 0x00000000#32) (ix2 p q) = ∑ kk : Fin 512, l (ix2 p kk) * r (ix2 q kk) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p q) ((contrEquiv1 dot_S1024x512_S512x512_S1024x512_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_1_0_0_n_n.rhsIdx (ix2 p q) ((contrEquiv1 dot_S1024x512_S512x512_S1024x512_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- A scale column spread along the contraction axis reads its row's one entry. -/
theorem column_apply (v : Vec Ideal S512x1 .f32) (q kk : Fin 512) :
    broadcastTo S512x512 v broadcasts_S512x1_S512x512 (ix2 q kk) = v (ix2 q 0) :=
  broadcastTo_apply v broadcasts_S512x1_S512x512 (ix2 q kk) (ix2 q 0) (fun a => match a with
    | ⟨0, _⟩ => by show q.val = if (512 : Nat) = 1 then 0 else q.val; rw [if_neg (by decide)]
    | ⟨1, _⟩ => by show (0 : Nat) = if (1 : Nat) = 1 then 0 else kk.val; rw [if_pos rfl])

/-- The bias row spread down the rows reads its column's one entry. -/
theorem row_apply (v : Vec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The two stores' values -/

/-- THE ACCUMULATE STEP at (p, q). -/
theorem accumulate_apply (v17 : FVec Ideal S1024x512 .bf16) (v31 v35 : FVec Ideal S512x512 .f32)
    (v36 v38 : Vec Ideal S512x1 .f32) (v47 : Vec Ideal S1024x512 .f32) (p : Fin 1024) (q : Fin 512) :
    k0_pay1 v17 v31 v35 v36 v38 v47 (ix2 p q)
      = v47 (ix2 p q) + ∑ kk : Fin 512, v17 (ix2 p kk) * (v36 (ix2 q 0) * v31 (ix2 q kk) - v38 (ix2 q 0) * v35 (ix2 q kk)) := by
  unfold k0_pay1
  simp only [shapeCast_self]
  rw [addf_apply, product_apply]
  refine congrArg (v47 (ix2 p q) + ·) (Finset.sum_congr rfl fun kk _ => ?_)
  rw [truncf_apply, subf_apply, mulf_apply, mulf_apply, column_apply, column_apply]

/-- THE BIAS STEP at (p, q). -/
theorem bias_apply (v55 : Vec Ideal S1024x512 .f32) (v56 : Vec Ideal S1x512 .f32) (p : Fin 1024) (q : Fin 512) :
    k0_pay2 v55 v56 (ix2 p q) = v55 (ix2 p q) + v56 (ix2 0 q) := by
  unfold k0_pay2
  simp only [shapeCast_self]
  rw [addf_apply, row_apply]

end Cert.KernelIdeal.Payloads

end
-- ==== Proof.Blocks.lean ====
/-
  Where each block of the pipeline sits in the argument arrays. The grid is 8 × 8 × 8; point `t` = 64·i + 8·j + k
  works on output block (i, j) and on stretch k of the contraction. At that point the body holds

    rows 1024·i … 1024·i + 1023, columns 512·k … 512·k + 511 of the activations,
    rows 512·j … 512·j + 511, columns 512·k … 512·k + 511 of the latent weights,
    entries 512·j … 512·j + 511 of the two scale vectors (as a column) and of the bias (as a row),

  the last three through arrays the host makes before the call by reshaping a vector of 4096 entries into a [4096, 1]
  column or a [1, 4096] row, which moves no entry.
-/
import proofs.«112102_j37838661877796_1_alg».proof.Proof.Gen.KernelIdeal.Frame
import proofs.«112102_j37838661877796_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Cert.TernaryGemm Idealize.ShloMosaic.ValueIdx

variable (m : (ℓ : Loc nD τ sig) → Buf (Elt Ideal) ℓ)

/-- The block index of each window at point `t` = 64·i + 8·j + k of the 8 × 8 × 8 grid, decided over the grid:
    activations (i, k), weights (j, k), the two scale columns (j, 0), the bias row (0, j), the output (i, j). -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = 0
    ∧ win0_3.index t (0 : Fin 2) = t.val / 8 % 8 ∧ win0_3.index t (1 : Fin 2) = 0
    ∧ win0_4.index t (0 : Fin 2) = 0 ∧ win0_4.index t (1 : Fin 2) = t.val / 8 % 8
    ∧ win0_5.index t (0 : Fin 2) = t.val / 64 ∧ win0_5.index t (1 : Fin 2) = t.val / 8 % 8 :=
  (by decide +kernel : ∀ t : Fin grid0.N, _)

/-- The five argument arrays on core `c`, as functions into the extended reals. -/
abbrev X (c : Dev nD) : (⟨2, ![8192, 4096]⟩ : Shape).Idx → EReal := m ((c : Thread nD τ).loc main_arg0)
abbrev W (c : Dev nD) : (⟨2, ![4096, 4096]⟩ : Shape).Idx → EReal := m ((c : Thread nD τ).loc main_arg1)
abbrev AP (c : Dev nD) : (⟨1, ![4096]⟩ : Shape).Idx → EReal := m ((c : Thread nD τ).loc main_arg2)
abbrev AN (c : Dev nD) : (⟨1, ![4096]⟩ : Shape).Idx → EReal := m ((c : Thread nD τ).loc main_arg3)
abbrev B (c : Dev nD) : (⟨1, ![4096]⟩ : Shape).Idx → EReal := m ((c : Thread nD τ).loc main_arg4)

/-- The five input blocks the body holds at point `t`. -/
abbrev xblk (c : Dev nD) (t : Fin cfg0.N) : Vec Ideal S1024x512 .f32 := iblk m c 0 t
abbrev wblk (c : Dev nD) (t : Fin cfg0.N) : Vec Ideal S512x512 .f32 := iblk m c 1 t
abbrev apblk (c : Dev nD) (t : Fin cfg0.N) : Vec Ideal S512x1 .f32 := iblk m c 2 t
abbrev anblk (c : Dev nD) (t : Fin cfg0.N) : Vec Ideal S512x1 .f32 := iblk m c 3 t
abbrev bblk (c : Dev nD) (t : Fin cfg0.N) : Vec Ideal S1x512 .f32 := iblk m c 4 t

/-! ## The three arrays the host reshapes before the call -/

/-- The positive scales as a [4096, 1] column: entry (r, 0) is scale r. -/
theorem apcol_apply (c : Dev nD) (r : Fin 4096) : (V m c main_v0 : S4096x1.Idx → EReal) (ix2 r 0) = AP m c (ix1 r) := by
  have e : (V m c main_v0 : S4096x1.Idx → EReal) = shapeCast S4096x1 (AP m c) shapeCasts_S4096_S4096x1 := by
    dsimp only [V, hostOps0]; after_results; rfl
  rw [e]
  exact shapeCast_apply _ _ (ix2 r 0) (ix1 r) (by
    rw [Shape.rowMajor_val_one, Shape.rowMajor_val_two]; show r.val = r.val * 1 + 0; omega)

/-- The negative scales likewise. -/
theorem ancol_apply (c : Dev nD) (r : Fin 4096) : (V m c main_v1 : S4096x1.Idx → EReal) (ix2 r 0) = AN m c (ix1 r) := by
  have e : (V m c main_v1 : S4096x1.Idx → EReal) = shapeCast S4096x1 (AN m c) shapeCasts_S4096_S4096x1 := by
    dsimp only [V, hostOps0]; after_results; rfl
  rw [e]
  exact shapeCast_apply _ _ (ix2 r 0) (ix1 r) (by
    rw [Shape.rowMajor_val_one, Shape.rowMajor_val_two]; show r.val = r.val * 1 + 0; omega)

/-- The bias as a [1, 4096] row: entry (0, q) is bias q. -/
theorem brow_apply (c : Dev nD) (q : Fin 4096) : (V m c main_v2 : S1x4096.Idx → EReal) (ix2 0 q) = B m c (ix1 q) := by
  have e : (V m c main_v2 : S1x4096.Idx → EReal) = shapeCast S1x4096 (B m c) shapeCasts_S4096_S1x4096 := by
    dsimp only [V, hostOps0]; after_results; rfl
  rw [e]
  exact shapeCast_apply _ _ (ix2 0 q) (ix1 q) (by
    rw [Shape.rowMajor_val_one, Shape.rowMajor_val_two]; show q.val = 0 * 4096 + q.val; omega)

/-! ## The blocks, read off the arrays: a block's coordinate is block index × block size + the coordinate inside -/

theorem xblk_apply (c : Dev nD) (t : Fin cfg0.N) (p : Fin 1024) (kk : Fin 512) :
    xblk m c t (ix2 p kk) = at2 (X m c) (1024 * (t.val / 64) + p.val) (512 * (t.val % 8) + kk.val) := by
  obtain ⟨e0, e1, -⟩ := idx_facts t
  have hN : t.val < 512 := lt_of_lt_of_eq t.isLt N_0
  have hr : 1024 * (t.val / 64) + p.val < 8192 := by omega
  have hk : 512 * (t.val % 8) + kk.val < 4096 := by omega
  unfold at2; rw [dif_pos ⟨hr, hk⟩]
  unfold xblk iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 1024 + 1 * p.val = 1024 * (t.val / 64) + p.val; rw [e0]; omega
  | ⟨1, _⟩ => show win0_0.index t (1 : Fin 2) * 512 + 1 * kk.val = 512 * (t.val % 8) + kk.val; rw [e1]; omega

theorem wblk_apply (c : Dev nD) (t : Fin cfg0.N) (q kk : Fin 512) :
    wblk m c t (ix2 q kk) = at2 (W m c) (512 * (t.val / 8 % 8) + q.val) (512 * (t.val % 8) + kk.val) := by
  obtain ⟨-, -, e0, e1, -⟩ := idx_facts t
  have hN : t.val < 512 := lt_of_lt_of_eq t.isLt N_0
  have hr : 512 * (t.val / 8 % 8) + q.val < 4096 := by omega
  have hk : 512 * (t.val % 8) + kk.val < 4096 := by omega
  unfold at2; rw [dif_pos ⟨hr, hk⟩]
  unfold wblk iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 512 + 1 * q.val = 512 * (t.val / 8 % 8) + q.val; rw [e0]; omega
  | ⟨1, _⟩ => show win0_1.index t (1 : Fin 2) * 512 + 1 * kk.val = 512 * (t.val % 8) + kk.val; rw [e1]; omega

theorem apblk_apply (c : Dev nD) (t : Fin cfg0.N) (q : Fin 512) :
    apblk m c t (ix2 q 0) = at1 (AP m c) (512 * (t.val / 8 % 8) + q.val) := by
  obtain ⟨-, -, -, -, e0, e1, -⟩ := idx_facts t
  have hN : t.val < 512 := lt_of_lt_of_eq t.isLt N_0
  have hr : 512 * (t.val / 8 % 8) + q.val < 4096 := by omega
  unfold at1; rw [dif_pos hr, ← apcol_apply m c ⟨_, hr⟩]
  unfold apblk iblk
  rw [View.read_apply]
  show (V m c main_v0 : S4096x1.Idx → EReal) _ = _
  refine congrArg _ (funext fun a => Fin.ext ?_)
  match a with
  | ⟨0, _⟩ => show win0_2.index t (0 : Fin 2) * 512 + 1 * q.val = 512 * (t.val / 8 % 8) + q.val; rw [e0]; omega
  | ⟨1, _⟩ => show win0_2.index t (1 : Fin 2) * 1 + 1 * 0 = 0; rw [e1]

theorem anblk_apply (c : Dev nD) (t : Fin cfg0.N) (q : Fin 512) :
    anblk m c t (ix2 q 0) = at1 (AN m c) (512 * (t.val / 8 % 8) + q.val) := by
  obtain ⟨-, -, -, -, -, -, e0, e1, -⟩ := idx_facts t
  have hN : t.val < 512 := lt_of_lt_of_eq t.isLt N_0
  have hr : 512 * (t.val / 8 % 8) + q.val < 4096 := by omega
  unfold at1; rw [dif_pos hr, ← ancol_apply m c ⟨_, hr⟩]
  unfold anblk iblk
  rw [View.read_apply]
  show (V m c main_v1 : S4096x1.Idx → EReal) _ = _
  refine congrArg _ (funext fun a => Fin.ext ?_)
  match a with
  | ⟨0, _⟩ => show win0_3.index t (0 : Fin 2) * 512 + 1 * q.val = 512 * (t.val / 8 % 8) + q.val; rw [e0]; omega
  | ⟨1, _⟩ => show win0_3.index t (1 : Fin 2) * 1 + 1 * 0 = 0; rw [e1]

theorem bblk_apply (c : Dev nD) (t : Fin cfg0.N) (q : Fin 512) :
    bblk m c t (ix2 0 q) = at1 (B m c) (512 * (t.val / 8 % 8) + q.val) := by
  obtain ⟨-, -, -, -, -, -, -, -, e0, e1, -⟩ := idx_facts t
  have hN : t.val < 512 := lt_of_lt_of_eq t.isLt N_0
  have hr : 512 * (t.val / 8 % 8) + q.val < 4096 := by omega
  unfold at1; rw [dif_pos hr, ← brow_apply m c ⟨_, hr⟩]
  unfold bblk iblk
  rw [View.read_apply]
  show (V m c main_v2 : S1x4096.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 512 + 1 * q.val = 512 * (t.val / 8 % 8) + q.val; rw [e1]; omega

end Cert.KernelIdeal.Blocks

end
-- ==== Proof.Accumulator.lean ====
/-
  The accumulator across the grid, and what reaches the output.

  The contraction axis is cut into eight stretches of 512 terms; the points 8·b, 8·b + 1, …, 8·b + 7 of the grid work on
  ONE output block and on stretch 0, 1, …, 7 in turn, carrying an accumulator from each to the next. After point
  `t` = 64·i + 8·j + k the accumulator holds, at (p, q), the first 512·(k + 1) terms of

      Σ kk < 4096, act (x (1024·i + p, kk)) · weff (ap, an) (w (512·j + q, kk)),

  by induction on the point: stretch 0 starts from zero (the empty sum), every other stretch from what the point
  before left, and a stretch adds exactly its own 512 terms (a finite sum over an additive commutative monoid splits
  at any position). At k = 7 all 4096 terms are in, and the output block receives that sum plus the channel's bias.
-/
import proofs.«112102_j37838661877796_1_alg».proof.Proof.Gen.KernelIdeal.Value
import proofs.«112102_j37838661877796_1_alg».proof.Proof.Pieces
import proofs.«112102_j37838661877796_1_alg».proof.Proof.Payloads
import proofs.«112102_j37838661877796_1_alg».proof.Proof.Blocks

noncomputable section

open scoped BigOperators
open Idealize.ShloMosaic Idealize.ShloMosaic.TcCoe Idealize.SL.Sem

namespace Cert.KernelIdeal.Acc

open Cert.KernelIdeal Cert.KernelIdeal.Gen Cert.TernaryGemm Idealize.ShloMosaic.ValueIdx
open Cert.KernelIdeal.Blocks Cert.KernelIdeal.Payloads Cert.KernelIdeal.Pieces

variable (m : (ℓ : Loc nD τ sig) → Buf (Elt Ideal) ℓ)

/-- What the accumulator holds after point `n` = 64·i + 8·j + k: at (p, q), the first 512·(k + 1) terms of the dot
    product of row 1024·i + p with channel 512·j + q. -/
def accAfter (c : Dev nD) (n : ℕ) : Vec Ideal S1024x512 .f32 := fun y =>
  dot (X m c) (W m c) (AP m c) (AN m c) (1024 * (n / 64) + (y 0).val) (512 * (n / 8 % 8) + (y 1).val) (512 * (n % 8 + 1))

/-- ONE STRETCH. If the accumulator holds the first 512·k terms, the accumulate step at point `t` leaves the first
    512·(k + 1): the block product adds exactly terms 512·k … 512·k + 511, since the activation block's entry
    (p, kk) is the activations' entry (1024·i + p, 512·k + kk) and the weight block's (q, kk) the weights'
    (512·j + q, 512·k + kk). -/
theorem stretch (c : Dev nD) (t : Fin cfg0.N) (acc : Vec Ideal S1024x512 .f32)
    (hacc : ∀ (p : Fin 1024) (q : Fin 512), acc (ix2 p q) = dot (X m c) (W m c) (AP m c) (AN m c) (1024 * (t.val / 64) + p.val) (512 * (t.val / 8 % 8) + q.val) (512 * (t.val % 8))) :
    k0_pay1 (k0_pay4 (xblk m c t)) (k0_pay6 (wblk m c t)) (k0_pay7 (wblk m c t)) (apblk m c t) (anblk m c t) acc
      = accAfter m c t.val := by
  funext y
  obtain ⟨p, q, rfl⟩ : ∃ (p : Fin 1024) (q : Fin 512), y = ix2 p q := ⟨y 0, y 1, eq_ix2 y⟩
  refine (accumulate_apply (k0_pay4 (xblk m c t)) (k0_pay6 (wblk m c t)) (k0_pay7 (wblk m c t)) (apblk m c t) (anblk m c t) acc p q).trans ?_
  rw [hacc]
  show _ = dot (X m c) (W m c) (AP m c) (AN m c) (1024 * (t.val / 64) + p.val) (512 * (t.val / 8 % 8) + q.val) (512 * (t.val % 8 + 1))
  rw [show 512 * (t.val % 8 + 1) = 512 * (t.val % 8) + 512 by omega, dot_step]
  refine congrArg _ (Finset.sum_congr rfl fun kk _ => ?_)
  rw [act_apply, pos_apply, neg_apply, xblk_apply, wblk_apply, apblk_apply, anblk_apply]
  rfl

/-- A first-stretch point (k = 0) zeroes the accumulator first: it leaves the first 512 terms. -/
theorem acc_first (c : Dev nD) (t : Fin cfg0.N) (h0 : t.val % 8 = 0) (h1 : ¬t.val % 8 = 7) :
    (outsAt0 m c t.val t.isLt).2 = accAfter m c t.val := by
  rw [outsAt0_A m c t h0 h1]
  dsimp only
  refine (scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (wblk m c t) (apblk m c t) (anblk m c t) (bblk m c t)).trans ?_
  refine stretch m c t _ fun p q => ?_
  rw [zero_apply, h0]
  exact (dot_zero _ _ _ _ _ _).symm

/-- The accumulator of the point before, read where the next stretch starts: point `t − 1` is in the same output block
    and left the first 512·k terms. -/
theorem prev_apply (c : Dev nD) (t : Fin cfg0.N) (h0 : ¬t.val % 8 = 0) (p : Fin 1024) (q : Fin 512) :
    accAfter m c (t.val - 1) (ix2 p q) = dot (X m c) (W m c) (AP m c) (AN m c) (1024 * (t.val / 64) + p.val) (512 * (t.val / 8 % 8) + q.val) (512 * (t.val % 8)) := by
  show dot (X m c) (W m c) (AP m c) (AN m c) (1024 * ((t.val - 1) / 64) + p.val) (512 * ((t.val - 1) / 8 % 8) + q.val) (512 * ((t.val - 1) % 8 + 1)) = _
  have e1 : (t.val - 1) / 64 = t.val / 64 := by omega
  have e2 : (t.val - 1) / 8 % 8 = t.val / 8 % 8 := by omega
  have e3 : (t.val - 1) % 8 + 1 = t.val % 8 := by omega
  rw [e1, e2, e3]

/-- A middle point adds its stretch to what the point before left. -/
theorem acc_middle (c : Dev nD) (t : Fin cfg0.N) (h0 : ¬t.val % 8 = 0) (h1 : ¬t.val % 8 = 7)
    (ih : (outsAt0 m c (t.val - 1) (Nat.lt_of_le_of_lt (Nat.sub_le _ _) t.isLt)).2 = accAfter m c (t.val - 1)) :
    (outsAt0 m c t.val t.isLt).2 = accAfter m c t.val := by
  rw [outsAt0_B m c t h0 h1]
  dsimp only
  refine (scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (wblk m c t) (apblk m c t) (anblk m c t) (bblk m c t) _).trans ?_
  refine stretch m c t _ fun p q => ?_
  rw [ih]
  exact prev_apply m c t h0 p q

/-- So does a last-stretch point (k = 7). -/
theorem acc_last (c : Dev nD) (t : Fin cfg0.N) (h0 : ¬t.val % 8 = 0) (h1 : t.val % 8 = 7)
    (ih : (outsAt0 m c (t.val - 1) (Nat.lt_of_le_of_lt (Nat.sub_le _ _) t.isLt)).2 = accAfter m c (t.val - 1)) :
    (outsAt0 m c t.val t.isLt).2 = accAfter m c t.val := by
  rw [outsAt0_C m c t h0 h1]
  dsimp only
  refine (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (apblk m c t) (anblk m c t) (bblk m c t) _).trans ?_
  refine stretch m c t _ fun p q => ?_
  rw [ih]
  exact prev_apply m c t h0 p q

/-- THE ACCUMULATOR after every point, by induction on the point. -/
theorem acc_eq (c : Dev nD) : ∀ (n : ℕ) (h : n < cfg0.N), (outsAt0 m c n h).2 = accAfter m c n := by
  intro n
  induction n with
  | zero => intro h; exact acc_first m c ⟨0, h⟩ rfl (by show ¬(0 : ℕ) % 8 = 7; decide)
  | succ n ih =>
    intro h
    by_cases h0 : (n + 1) % 8 = 0
    · exact acc_first m c ⟨n + 1, h⟩ h0 (by show ¬(n + 1) % 8 = 7; omega)
    · by_cases h1 : (n + 1) % 8 = 7
      · exact acc_last m c ⟨n + 1, h⟩ h0 h1 (ih _)
      · exact acc_middle m c ⟨n + 1, h⟩ h0 h1 (ih _)

/-- WHAT A LAST-STRETCH POINT STORES into the output block: at (p, q) the whole dot product of row 1024·i + p with
    channel 512·j + q (all 4096 terms are in: 512·8) plus that channel's bias. -/
theorem out_last (c : Dev nD) (t : Fin cfg0.N) (h0 : ¬t.val % 8 = 0) (h1 : t.val % 8 = 7) (p : Fin 1024) (q : Fin 512) :
    (outsAt0 m c t.val t.isLt).1 (ix2 p q)
      = dot (X m c) (W m c) (AP m c) (AN m c) (1024 * (t.val / 64) + p.val) (512 * (t.val / 8 % 8) + q.val) (4096) + at1 (B m c) (512 * (t.val / 8 % 8) + q.val) := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (apblk m c t) (anblk m c t) (bblk m c t) _) (ix2 p q)).trans ?_
  refine (bias_apply _ (bblk m c t) p q).trans ?_
  rw [bblk_apply]
  refine congrArg (· + _) ?_
  have hs := stretch m c t (outsAt0 m c (t.val - 1) (Nat.lt_of_le_of_lt (Nat.sub_le _ _) t.isLt)).2
    (fun p q => by rw [acc_eq m c (t.val - 1) _]; exact prev_apply m c t h0 p q)
  rw [hs]
  show dot (X m c) (W m c) (AP m c) (AN m c) (1024 * (t.val / 64) + p.val) (512 * (t.val / 8 % 8) + q.val) (512 * (t.val % 8 + 1)) = _
  rw [h1]

end Cert.KernelIdeal.Acc

end
-- ==== Proof.Result.lean ====
/-
  The kernel's result array. Each output block (i, j) of 1024 rows and 512 channels is written back exactly once, by
  the point that finishes its eighth stretch, and holds there the whole dot products plus the bias; the 8 × 8 blocks
  tile the [8192, 4096] result, so the array ends holding the ternary GEMM `G` of the five arguments everywhere.
-/
import proofs.«112102_j37838661877796_1_alg».proof.Proof.Accumulator

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.TernaryGemm Idealize.ShloMosaic.ValueIdx
open Cert.KernelIdeal.Blocks Cert.KernelIdeal.Acc

variable (m : (ℓ : Loc nD τ sig) → Buf (Elt Ideal) ℓ) (ρ : Dev nD → PrngReg)

/-- What the result array ends holding: the ternary GEMM of the five arguments. -/
abbrev result (c : Dev nD) : Buf (Elt Ideal) ((c : Thread nD τ).loc main_v3) :=
  G (X m c) (W m c) (AP m c) (AN m c) (B m c)

/-- WHAT A WRITE-BACK WRITES. The output block (i, j) is written back once, after its last stretch, and what is
    written is the result's rows 1024·i … and channels 512·j …: block (i, j) of `result`. -/
theorem flushed_eq (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  have h0 : ¬t.val % 8 = 0 := by omega
  obtain ⟨-, -, -, -, -, -, -, -, -, -, e0, e1⟩ := idx_facts t
  have hN : t.val < 512 := lt_of_lt_of_eq t.isLt N_0
  rw [Value.flushed5]
  funext y
  obtain ⟨p, q, rfl⟩ : ∃ (p : Fin 1024) (q : Fin 512), y = ix2 p q := ⟨y 0, y 1, eq_ix2 y⟩
  rw [View.read_apply]
  show (outsAt0 m c t.val t.isLt).1 (ix2 p q) = result m c (((cfg0.win 5).blk t).view.emb (ix2 p q))
  rw [out_last m c t h0 h1 p q]
  have hr : ((((cfg0.win 5).blk t).view.emb (ix2 p q)) 0).val = 1024 * (t.val / 64) + p.val := by
    show win0_5.index t (0 : Fin 2) * 1024 + 1 * p.val = _; rw [e0]; omega
  have hc : ((((cfg0.win 5).blk t).view.emb (ix2 p q)) 1).val = 512 * (t.val / 8 % 8) + q.val := by
    show win0_5.index t (1 : Fin 2) * 512 + 1 * q.val = _; rw [e1]; omega
  show _ = dot (X m c) (W m c) (AP m c) (AN m c) ((((cfg0.win 5).blk t).view.emb (ix2 p q)) 0).val ((((cfg0.win 5).blk t).view.emb (ix2 p q)) 1).val 4096
    + at1 (B m c) ((((cfg0.win 5).blk t).view.emb (ix2 p q)) 1).val
  rw [hr, hc]

/-- An element of the result lies in point `t`'s output block iff each coordinate lies in the block's range. -/
theorem mem_blk (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v3).slice (win0_5.rect t)).set ↔ _
  rw [View.set_slice_whole, Rect.mem_set_unit]
  exact Iff.rfl

/-- THE COVER. Element (r, ch) of the result lies in output block (r / 1024, ch / 512), which the last-stretch
    point 64·(r / 1024) + 8·(ch / 512) + 7 writes back. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 512 := N_0
  refine ⟨⟨64 * ((i 0).val / 1024) + 8 * ((i 1).val / 512) + 7, by rw [hN]; omega⟩, ?_, ?_⟩
  · exact (flush0_5 _).mpr (by show (64 * ((i 0).val / 1024) + 8 * ((i 1).val / 512) + 7) % 8 = 7; omega)
  · rw [mem_blk]
    obtain ⟨-, -, -, -, -, -, -, -, -, -, e0, e1⟩ := idx_facts ⟨64 * ((i 0).val / 1024) + 8 * ((i 1).val / 512) + 7, by rw [hN]; omega⟩
    intro a
    match a with
    | ⟨0, _⟩ =>
      show win0_5.index _ (0 : Fin 2) * 1024 ≤ (i 0).val ∧ (i 0).val < win0_5.index _ (0 : Fin 2) * 1024 + 1024
      rw [e0]
      show (64 * ((i 0).val / 1024) + 8 * ((i 1).val / 512) + 7) / 64 * 1024 ≤ (i 0).val ∧ (i 0).val < (64 * ((i 0).val / 1024) + 8 * ((i 1).val / 512) + 7) / 64 * 1024 + 1024
      omega
    | ⟨1, _⟩ =>
      show win0_5.index _ (1 : Fin 2) * 512 ≤ (i 1).val ∧ (i 1).val < win0_5.index _ (1 : Fin 2) * 512 + 512
      rw [e1]
      show (64 * ((i 0).val / 1024) + 8 * ((i 1).val / 512) + 7) / 8 % 8 * 512 ≤ (i 1).val ∧ (i 1).val < (64 * ((i 0).val / 1024) + 8 * ((i 1).val / 512) + 7) / 8 % 8 * 512 + 512
      omega

/-- THE RESULT ARRAY after the run: every element is in some written-back block, so it is `result`. -/
theorem final (c : Dev nD) : (dats m 0 c).arrAt 5 cfg0.N = result m c :=
  (dats m 0 c).arrAt_eq_of_cover 5 (result m c) (flushed_eq m c) (cover)

/-- The kernel's run with its result named: the ternary GEMM of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.Reference.lean ====
/-
  The reference computes the same function. Its program ternarizes the clipped activations and the latent weights
  with the same comparisons against the same literals, builds the two plane indicators by converting the comparison
  bit, scales them by the per-channel vectors spread over the contraction axis, takes ONE product contracting the
  second axis of both operands over all 4096 positions, and adds the bias spread down the rows. Read at element
  (r, ch) its last stage is

      (Σ k < 4096, act (x (r, k)) · weff (ap ch) (an ch) (w (ch, k))) + bias ch,

  which is `G` of the arguments.
-/
import proofs.«112102_j37838661877796_1_alg».proof.Proof.RefRead
import proofs.«112102_j37838661877796_1_alg».proof.Proof.Spec

noncomputable section

open scoped BigOperators
open Idealize.ShloMosaic Idealize.ShloMosaic.TcCoe Idealize.SL.Sem

namespace Cert.ReferenceIdeal.RefValue

open Cert.ReferenceIdeal Cert.ReferenceIdeal.ReadP Cert.TernaryGemm Idealize.ShloMosaic.ValueIdx

/-- The reference's ternarized clipped activations, element by element: the same comparisons and selections. -/
theorem act_elem (x0 : (⟨S8192x4096, .f32⟩ : BufTy).Contents (Elt Ideal)) (j : S8192x4096.Idx) :
    val_main_v7 (F := Ideal) x0 j = act (x0 j) := rfl

/-- The +1 plane's indicator: the comparison bit converted as an unsigned integer. -/
theorem pos_elem (x1 : (⟨S4096x4096, .f32⟩ : BufTy).Contents (Elt Ideal)) (j : S4096x4096.Idx) :
    val_main_v17 (F := Ideal) x1 j = posMask (x1 j) := rfl

/-- The −1 plane's indicator. -/
theorem neg_elem (x1 : (⟨S4096x4096, .f32⟩ : BufTy).Contents (Elt Ideal)) (j : S4096x4096.Idx) :
    val_main_v20 (F := Ideal) x1 j = negMask (x1 j) := rfl

/-- The positive scales spread over the contraction axis: row `r` reads scale `r`. -/
theorem apcol_elem (x2 : (⟨S4096, .f32⟩ : BufTy).Contents (Elt Ideal)) (r k : Fin 4096) :
    val_main_v22 (F := Ideal) x2 (ix2 r k) = x2 (ix1 r) := by
  rw [val_main_v22_apply, val_main_v21_apply]
  exact congrArg x2 (funext fun a => match a with | ⟨0, _⟩ => rfl)

/-- The negative scales likewise. -/
theorem ancol_elem (x3 : (⟨S4096, .f32⟩ : BufTy).Contents (Elt Ideal)) (r k : Fin 4096) :
    val_main_v25 (F := Ideal) x3 (ix2 r k) = x3 (ix1 r) := by
  rw [val_main_v25_apply, val_main_v24_apply]
  exact congrArg x3 (funext fun a => match a with | ⟨0, _⟩ => rfl)

/-- The effective weights, element by element. -/
theorem weff_elem (x1 : (⟨S4096x4096, .f32⟩ : BufTy).Contents (Elt Ideal)) (x2 x3 : (⟨S4096, .f32⟩ : BufTy).Contents (Elt Ideal))
    (r k : Fin 4096) :
    val_main_v27 (F := Ideal) x1 x2 x3 (ix2 r k) = weff (x2 (ix1 r)) (x3 (ix1 r)) (x1 (ix2 r k)) := by
  rw [val_main_v27_apply, val_main_v23_apply, val_main_v26_apply, apcol_elem, ancol_elem, pos_elem, neg_elem]
  rfl

/-- THE REFERENCE IS `G`: the contraction over the second axis of both operands, term `k` the product of row
    `r`'s `k`-th activation with channel `ch`'s `k`-th effective weight, plus the bias spread down the rows. -/
theorem ref_eq (x0 : (⟨S8192x4096, .f32⟩ : BufTy).Contents (Elt Ideal)) (x1 : (⟨S4096x4096, .f32⟩ : BufTy).Contents (Elt Ideal))
    (x2 x3 x4 : (⟨S4096, .f32⟩ : BufTy).Contents (Elt Ideal)) :
    val_main_v31 (F := Ideal) x0 x1 x2 x3 x4 = G x0 x1 x2 x3 x4 := by
  funext i
  obtain ⟨r, ch, rfl⟩ : ∃ (r : Fin 8192) (ch : Fin 4096), i = ix2 r ch := ⟨i 0, i 1, eq_ix2 i⟩
  rw [val_main_v31_apply, val_main_v28_apply, val_main_v30_apply, val_main_v29_apply]
  show (∑ k : Fin 4096, val_main_v7 (F := Ideal) x0 (lidx_main_v28 (ix2 r ch) k) * val_main_v27 (F := Ideal) x1 x2 x3 (ridx_main_v28 (ix2 r ch) k))
      + x4 (idx_main_v29 (idx_main_v30 (ix2 r ch)))
    = dot x0 x1 x2 x3 r.val ch.val 4096 + at1 x4 ch.val
  rw [dot_full, at1_ix]
  refine congrArg₂ (· + ·) (Finset.sum_congr rfl fun k _ => ?_)
    (congrArg x4 (funext fun a => match a with | ⟨0, _⟩ => rfl))
  have el : lidx_main_v28 (ix2 r ch) k = ix2 r k := funext fun a => Fin.ext (by
    match a with
    | ⟨0, _⟩ => rfl
    | ⟨1, _⟩ => rfl)
  have er : ridx_main_v28 (ix2 r ch) k = ix2 ch k := funext fun a => Fin.ext (by
    match a with
    | ⟨0, _⟩ => rfl
    | ⟨1, _⟩ => rfl)
  rw [el, er, act_elem, weff_elem]
  unfold term
  rw [at2_ix, at2_ix, at1_ix, at1_ix]

end Cert.ReferenceIdeal.RefValue

end
-- ==== Proof.lean ====
/- The certificate of a ternary GEMM with per-channel scales against its jnp reference, over the extended reals.

   Both programs clip the activations to [-2.5, 2.5], ternarize activations and latent weights against the same
   threshold, scale the +1 and −1 planes of the weights by two per-channel vectors, contract activations against the
   effective weights over 4096 positions, and add a bias. The kernel does it on an 8 × 8 × 8 grid: output block by
   output block, the contraction in eight stretches of 512 accumulated in a scratch block; the reference in one
   product. Over the extended reals the two are ONE function of the arguments (Proof/Spec.lean `G`): cutting a finite
   sum into stretches changes nothing in an additive commutative monoid, the narrowing of the ternary operands to
   bf16 is the identity, and the two spellings of "comparison bit to float" give the same 0 or 1. No law used needs
   the inputs finite, so the precondition is never opened.

   The frames of the two kernel programs are the generated ones; the reference's frame is its run with the result
   dropped; the ideal pass rewrote nothing, so there is nothing to preserve. The kernel's value is read off the
   generated frame run (Proof/Pieces, Payloads, Blocks, Accumulator, Result), the reference's off its run read one
   operation at a time (Proof/Reference). -/
import proofs.«112102_j37838661877796_1_alg».proof.Defs
import proofs.«112102_j37838661877796_1_alg».proof.Proof.Gen.Kernel
import proofs.«112102_j37838661877796_1_alg».proof.Proof.Gen.Kernel.Skeleton
import proofs.«112102_j37838661877796_1_alg».proof.Proof.Gen.Kernel.Launch
import proofs.«112102_j37838661877796_1_alg».proof.Proof.Gen.Kernel.Points
import proofs.«112102_j37838661877796_1_alg».proof.Proof.Gen.Kernel.Frame
import proofs.«112102_j37838661877796_1_alg».proof.Proof.Gen.KernelIdeal
import proofs.«112102_j37838661877796_1_alg».proof.Proof.Gen.KernelIdeal.Skeleton
import proofs.«112102_j37838661877796_1_alg».proof.Proof.Gen.KernelIdeal.Launch
import proofs.«112102_j37838661877796_1_alg».proof.Proof.Gen.KernelIdeal.Points
import proofs.«112102_j37838661877796_1_alg».proof.Proof.Gen.KernelIdeal.Frame
import proofs.«112102_j37838661877796_1_alg».proof.Proof.Gen.ReferenceIdeal
import proofs.«112102_j37838661877796_1_alg».proof.Proof.Gen.Pre_finite_inputs
import proofs.«112102_j37838661877796_1_alg».proof.Proof.Gen.KernelIdeal.Value
import proofs.«112102_j37838661877796_1_alg».proof.Proof.Result
import proofs.«112102_j37838661877796_1_alg».proof.Proof.Reference
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments both programs end with the ternary GEMM `G` of those arguments
    in their result: the kernel by its accumulated blocks, the reference by its one product. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
